-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) (main_arg3 : IVec S4096x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S1x4096, .f32⟩
  | .hbm, ⟨5, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .i32⟩
  | .local _ .vmem, ⟨5, _⟩ => ⟨S1024x512, .i32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v16 : BitVec 1 := Scalar.cmpi .eq arg2 c7_i32
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .i32 = 32 ∨ (Rect.block (s := S4096x4096) S1024x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S4096x4096, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one grid point of the masked-linear kernel leaves behind, as values.  The accumulator block (a scratch the kernel
  keeps between points) is reset to zero at the first point of a contraction run and then, at every point, replaced by
  itself plus the product of the point's x block with its masked weight block; at the last point of the run the output
  block is the accumulator, just updated, plus the bias row broadcast down the rows.  Each statement holds for any
  float instance: it only says which stored payload is read back, not what the arithmetic means.
-/
import proofs.«130189_j85787676770758_1_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

/-- Offsets (0, 0): every load and store of the body goes through a whole staging buffer. -/
theorem hz : (![0, 0] : Fin 2 → Nat) = fun _ => 0 := funext fun a => by fin_cases a <;> rfl

/-- First point of a run: the accumulator is zeroed, read back, and left at zero plus the point's product. -/
theorem scratch_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .i32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x512 .f32) (x1 : Vec F S1024x512 .f32) (x2 : Vec F S1024x512 .i32) (x3 : Vec F S1x1024 .f32) :
    sout0_A_0 c i arg3 harg3 arg4 harg4 arg5 harg5 arg6 harg6 arg7 harg7 arg8 harg8 hc0 hc1 x0 x1 x2 x3 = k0_pay2 x1 x2 x0 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread,
    View.ld_unit_zero (S := S1024x512) hz]

/-- A middle point: the accumulator found at `acc` is left at `acc` plus the point's product. -/
theorem scratch_middle (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .i32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x512 .f32) (x1 : Vec F S1024x512 .f32) (x2 : Vec F S1024x512 .i32) (x3 : Vec F S1x1024 .f32) (acc : Vec F S1024x1024 .f32) :
    sout0_B_0 c i arg3 harg3 arg4 harg4 arg5 harg5 arg6 harg6 arg7 harg7 arg8 harg8 hc0 hc1 x0 x1 x2 x3 acc = k0_pay2 x1 x2 x0 acc := by
  unfold sout0_B_0
  rw [View.read_writes_eq_canon _ _ _ (scover0_B_0 c i arg3 harg3 arg4 harg4 arg5 harg5 arg6 harg6 arg7 harg7 arg8 harg8 hc0 hc1 x0 x1 x2 x3 acc)]
  unfold kernelRun0_B
  dsimp only
  sl_unfold_words
  rw [View.canon_unit_zero hz]
  simp only [View.readAt_eq_ld, harg3.read_unread, harg4.read_unread, harg5.read_unread, harg8.read_unread,
    View.ld_unit_zero (S := S1024x512) hz, View.ld_unit_zero (S := S1024x1024) hz]

/-- The last point of a run updates the accumulator exactly as a middle point does. -/
theorem scratch_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .i32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .f32) (x1 : Vec F S1024x512 .f32) (x2 : Vec F S1024x512 .i32) (x3 : Vec F S1x1024 .f32) (acc : Vec F S1024x1024 .f32) :
    sout0_C_0 c i arg3 harg3 arg4 harg4 arg5 harg5 arg6 harg6 arg7 harg7 arg8 harg8 hc0 hc1 x0 x1 x2 x3 acc = k0_pay2 x1 x2 x0 acc := by
  unfold sout0_C_0
  rw [View.read_writes_eq_canon _ _ _ (scover0_C_0 c i arg3 harg3 arg4 harg4 arg5 harg5 arg6 harg6 arg7 harg7 arg8 harg8 hc0 hc1 x0 x1 x2 x3 acc)]
  unfold kernelRun0_C
  dsimp only
  sl_unfold_words
  rw [View.canon_unit_zero hz]
  simp only [View.readAt_eq_ld, harg3.read_unread, harg4.read_unread, harg5.read_unread, harg8.read_unread,
    View.ld_unit_zero (S := S1024x512) hz, View.ld_unit_zero (S := S1024x1024) hz]

/-- … and its output block is the updated accumulator plus the bias row. -/
theorem out_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .i32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .f32) (x1 : Vec F S1024x512 .f32) (x2 : Vec F S1024x512 .i32) (x3 : Vec F S1x1024 .f32) (acc : Vec F S1024x1024 .f32) :
    out0_C_4 c i arg3 harg3 arg4 harg4 arg5 harg5 arg6 harg6 arg7 harg7 arg8 harg8 hc0 hc1 x0 x1 x2 x3 acc = k0_pay3 (k0_pay2 x1 x2 x0 acc) x3 := by
  unfold out0_C_4
  rw [View.read_writes_eq_canon _ _ _ (cover0_C_4 c i arg3 harg3 arg4 harg4 arg5 harg5 arg6 harg6 arg7 harg7 arg8 harg8 hc0 hc1 x0 x1 x2 x3 acc)]
  unfold kernelRun0_C
  dsimp only
  sl_unfold_words
  rw [View.canon_unit_zero hz, View.readCov_unit_zero (S := S1024x1024) _ hz]
  simp only [View.readAt_eq_ld, harg3.read_unread, harg4.read_unread, harg5.read_unread, harg6.read_unread,
    harg8.read_unread, View.ld_unit_zero (S := S1024x512) hz, View.ld_unit_zero (S := S1024x1024) hz,
    View.ld_unit_zero (S := S1x1024) hz]

end Cert.KernelIdeal.Acc

end
-- ==== Proof.LibMatmulRowsByRows.lean ====
/-
  A matrix product with no batch axis whose two operands are both laid out rows × contraction (the right operand is
  contracted along its columns, as in x · wᵀ): read at one entry on the extended reals it is, into a zero accumulator,
  the plain sum over the contraction coordinate of the products of the two operands' entries.  Stated once for any
  extents and any dimension-number record of that pattern, for the vector unit's product and for the host's.
-/
import Idealize.ShloMosaic.Lib.ValueIdx
import Idealize.ShloMosaic.PureOps.Ideal.Laws

noncomputable section

namespace Cert.SparseLinear

open Idealize.ShloMosaic Idealize.ShloMosaic.ValueIdx

variable {M K N : ℕ}

/-- The dimension numbers contract the columns of both operands and keep the rows of both, the left operand's rows
    first, with no batch axis. -/
structure IsRowsByRows (D : DotDims ⟨2, ![M, K]⟩ ⟨2, ![N, K]⟩ ⟨2, ![M, N]⟩) : Prop where
  lc : D.lhsContracting = [1]
  rc : D.rhsContracting = [1]
  ln : D.lhsNonContracting = [0]
  rn : D.rhsNonContracting = [0]
  lb : D.lhsBatch = []
  rb : D.rhsBatch = []

/-- The sum over the one-axis contraction index is the sum over its coordinate, the left operand read at
    (row p, l) and the right operand at (row q, l). -/
theorem rowsByRows_sum {φ₁ φ₂ : FTy} (D : DotDims ⟨2, ![M, K]⟩ ⟨2, ![N, K]⟩ ⟨2, ![M, N]⟩) (hD : IsRowsByRows D)
    (A : FVec Ideal ⟨2, ![M, K]⟩ φ₁) (B : FVec Ideal ⟨2, ![N, K]⟩ φ₂) (p : Fin M) (q : Fin N) :
    ∑ k : D.contr.Idx, A (D.lhsIdx (ix2 p q) k) * B (D.rhsIdx (ix2 p q) k) = ∑ l : Fin K, A (ix2 p l) * B (ix2 q l) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![N, K]⟩ ⟨2, ![M, N]⟩ := ⟨[1], [1], [0], [0], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (i 1).val := by
    intro i k
    unfold DotDims.rhsIdx
    rw [dif_neg (show ¬(0 : Fin 2) ∈ ([] : List (Fin 2)) by decide), dif_pos (show (0 : Fin 2) ∈ ([0] : List (Fin 2)) by decide)]
    rfl
  have r1 : ∀ (i : (⟨2, ![M, N]⟩ : Shape).Idx) (k : D.contr.Idx), (D.rhsIdx i k 1).val = (k ⟨0, Nat.one_pos⟩).val :=
    fun i k => D.rhsIdx_val_of_single rfl i k
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 q l := funext fun a => Fin.ext (by
    match a with
    | ⟨0, _⟩ => exact r0 _ _
    | ⟨1, _⟩ => exact (r1 _ _).trans hk)
  rw [el, er]

/-- The vector unit's product into the zero accumulator, at entry (p, q). -/
theorem matmul_rowsByRows_apply {φ₁ φ₂ : FTy} (D : DotDims ⟨2, ![M, K]⟩ ⟨2, ![N, K]⟩ ⟨2, ![M, N]⟩) (hD : IsRowsByRows D)
    (prec : Option ContractPrecision) (A : FVec Ideal ⟨2, ![M, K]⟩ φ₁) (B : FVec Ideal ⟨2, ![N, K]⟩ φ₂) (p : Fin M) (q : Fin N) :
    matmul D prec A B (constant (F := Ideal) ⟨2, ![M, N]⟩ .f32 0x00000000#32) (ix2 p q) = ∑ l : Fin K, A (ix2 p l) * B (ix2 q l) := by
  simp only [matmul]
  rw [Ideal.matmul_constant_zero_apply]
  exact rowsByRows_sum D hD A B p q

/-- The host's product, at entry (p, q). -/
theorem dotGeneral_rowsByRows_apply {φ₁ φ₂ : FTy} (D : DotDims ⟨2, ![M, K]⟩ ⟨2, ![N, K]⟩ ⟨2, ![M, N]⟩) (hD : IsRowsByRows D)
    (prec : Option ContractPrecision) (A : FVec Ideal ⟨2, ![M, K]⟩ φ₁) (B : FVec Ideal ⟨2, ![N, K]⟩ φ₂) (p : Fin M) (q : Fin N) :
    Host.dotGeneral D prec A B (ix2 p q) = ∑ l : Fin K, A (ix2 p l) * B (ix2 q l) := by
  simp only [Host.dotGeneral]
  rw [Ideal.dotGeneral_apply]
  exact rowsByRows_sum D hD A B p q

end Cert.SparseLinear

end
-- ==== Proof.Payloads.lean ====
/-
  The three stored payloads of the body read at one entry, on the extended reals.  The reset value is 0.  The
  accumulator update at (p, q) is the old entry plus Σ_l x[p, l] · (w[q, l] · mask[q, l]) over the 512 features of
  the point's blocks: the two changes of float format are the identity there, and the vector unit's product into a zero
  accumulator is the plain sum over the contracted coordinate.  The output payload at (p, q) is the accumulator entry
  plus the bias row's entry q.
-/
import proofs.«130189_j85787676770758_1_alg».proof.Proof.Gen.KernelIdeal.Skeleton
import proofs.«130189_j85787676770758_1_alg».proof.Proof.LibMatmulRowsByRows
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Acc

open Cert.KernelIdeal Cert.KernelIdeal.Gen Cert.SparseLinear

/-- The reset stores the extended real 0 at every entry. -/
theorem reset_apply (y : S1024x1024.Idx) : k0_pay1 (F := Ideal) y = 0 := by
  unfold k0_pay1
  simp only [shapeCast_self]
  show Ideal.ofBits .f32 0x00000000#32 = 0
  exact Ideal.ofBits_zero_f32

/-- The accumulator update at entry (p, q). -/
theorem update_apply (v3 : FVec Ideal S1024x512 .f32) (v4 : IVec S1024x512 32) (v7 : FVec Ideal S1024x512 .f32)
    (v10 : FVec Ideal S1024x1024 .f32) (p q : Fin 1024) :
    k0_pay2 (F := Ideal) v3 v4 v7 v10 (ix2 p q)
      = v10 (ix2 p q) + ∑ l : Fin 512, v7 (ix2 p l) * (v3 (ix2 q l) * FloatOps.sitofp (F := Ideal) .f32 (v4 (ix2 q l))) := by
  unfold k0_pay2
  simp only [shapeCast_self]
  refine (addf_apply _ _ _).trans ?_
  exact congrArg (v10 (ix2 p q) + ·) (matmul_rowsByRows_apply _ ⟨rfl, rfl, rfl, rfl, rfl, rfl⟩ none _ _ p q)

/-- The output payload at entry (p, q): the accumulator entry plus the bias row at q. -/
theorem output_apply (v19 : FVec Ideal S1024x1024 .f32) (v20 : FVec Ideal S1x1024 .f32) (p q : Fin 1024) :
    k0_pay3 (F := Ideal) v19 v20 (ix2 p q) = v19 (ix2 p q) + v20 (ix2 0 q) := by
  unfold k0_pay3
  simp only [shapeCast_self]
  refine (addf_apply _ _ _).trans ?_
  refine congrArg (v19 (ix2 p q) + ·) ?_
  exact broadcastTo_apply _ _ _ (ix2 0 q) (fun a => by
    match a with
    | ⟨0, _⟩ => show (0 : ℕ) = if (1 : ℕ) = 1 then 0 else _; rw [if_pos rfl]
    | ⟨1, _⟩ => show q.val = if (1024 : ℕ) = 1 then 0 else _; rw [if_neg (by decide)]; rfl)

end Cert.KernelIdeal.Acc

end
-- ==== Proof.Spec.lean ====
/-
  The masked linear layer as one function of its four arrays, entry by entry on the extended reals:

      y[r, n] = ( Σ_k  x[r, k] · ( w[n, k] · mask[n, k] ) ) + b[n],      k over the 4096 input features,

  the mask an integer array converted to a float entry by entry.  The kernel reaches the same number by cutting the
  contraction into eight runs of 512 features; `sum_runs` is the only law that joins the two readings: a sum over
  4096 consecutive positions is the sum, over the eight runs, of each run's 512 terms.  It is a regrouping of a finite
  sum in a commutative monoid, so it holds at the infinities too and no finiteness of the inputs is needed.
-/
import Idealize.ShloMosaic.Lib.ValueIdx
import Idealize.ShloMosaic.PureOps.Ideal.Laws

noncomputable section

namespace Cert.SparseLinear

open Idealize.ShloMosaic Idealize.ShloMosaic.ValueIdx

/-- The activations' and the result's shape, the weights' and the mask's shape, the bias's shape. -/
abbrev SX : Shape := ⟨2, ![8192, 4096]⟩
abbrev SW : Shape := ⟨2, ![4096, 4096]⟩
abbrev SB : Shape := ⟨1, ![4096]⟩

/-- One term of the contraction for output entry (r, n): x[r, k] · (w[n, k] · mask[n, k]). -/
def term (X : FVec Ideal SX .f32) (W : FVec Ideal SW .f32) (Mk : IVec SW 32) (r : Fin 8192) (n k : Fin 4096) : EReal :=
  X (ix2 r k) * (W (ix2 n k) * FloatOps.sitofp (F := Ideal) .f32 (Mk (ix2 n k)))

/-- The layer: the contraction over all 4096 features, plus the bias of the output column. -/
def sparseLinear (X : FVec Ideal SX .f32) (W : FVec Ideal SW .f32) (B : FVec Ideal SB .f32) (Mk : IVec SW 32) :
    FVec Ideal SX .f32 :=
  fun i => (∑ k : Fin 4096, term X W Mk (i 0) (i 1) k) + B (ix1 (i 1))

/-- Position `l` of run `s` among the 4096 features. -/
def feat (s : Fin 8) (l : Fin 512) : Fin 4096 := ⟨512 * s.val + l.val, by have := s.isLt; have := l.isLt; omega⟩

theorem feat_val (s : Fin 8) (l : Fin 512) : (feat s l).val = 512 * s.val + l.val := rfl

/-- A sum over the 4096 features is the sum over the eight runs of the 512 terms of each. -/
theorem sum_runs {M : Type*} [AddCommMonoid M] (f : Fin 4096 → M) :
    ∑ k : Fin 4096, f k = ∑ s : Fin 8, ∑ l : Fin 512, f (feat s l) := by
  have h := Fintype.sum_equiv (finProdFinEquiv (m := 8) (n := 512)) (fun p => f (finProdFinEquiv p)) f (fun _ => rfl)
  rw [← h, Fintype.sum_prod_type]
  refine Finset.sum_congr rfl fun s _ => Finset.sum_congr rfl fun l _ => congrArg f (Fin.ext ?_)
  show l.val + 512 * s.val = 512 * s.val + l.val
  omega

end Cert.SparseLinear

end
-- ==== Proof.KernelValue.lean ====
/-
  The kernel's result array, entry by entry, on the extended reals.

  The grid is 8 × 4 × 8: row block i₀ = t / 32 of x and of the result, column block i₁ = (t / 8) mod 4 (a row block of
  the weights, the mask and — through its reshape to one row — the bias), and contraction run s = t mod 8, the innermost
  axis.  Point t reads x[1024·i₀ + p, 512·s + l], w and mask at [1024·i₁ + q, 512·s + l] and bias[1024·i₁ + q].

  Over the eight consecutive points of one (i₀, i₁) the accumulator block is reset and then stepped: after the run's
  last point its entry (p, q) is 0 plus the sum over the eight runs of Σ_l x·(w·mask), and the output block written back
  there is that plus the bias.  By regrouping the 4096 features into the eight runs this is the layer's value at
  (1024·i₀ + p, 1024·i₁ + q); the 32 blocks written back tile the result array.
-/
import proofs.«130189_j85787676770758_1_alg».proof.Proof.Gen.KernelIdeal.Value
import proofs.«130189_j85787676770758_1_alg».proof.Proof.Pieces
import proofs.«130189_j85787676770758_1_alg».proof.Proof.Payloads
import proofs.«130189_j85787676770758_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.SparseLinear

variable (m : (ℓ : Loc nD τ sig) → Buf (Elt Ideal) ℓ) (ρ : Dev nD → PrngReg)

/-! ## The blocks a point reads, and the arrays they are cut from -/

abbrev xblk (c : Dev nD) (t : Fin cfg0.N) : FVec Ideal S1024x512 .f32 := iblk m c 0 t
abbrev wblk (c : Dev nD) (t : Fin cfg0.N) : FVec Ideal S1024x512 .f32 := iblk m c 1 t
abbrev kblk (c : Dev nD) (t : Fin cfg0.N) : IVec S1024x512 32 := iblk m c 2 t
abbrev bblk (c : Dev nD) (t : Fin cfg0.N) : FVec Ideal S1x1024 .f32 := iblk m c 3 t
abbrev xarr (c : Dev nD) : FVec Ideal S8192x4096 .f32 := V m c main_arg0
abbrev warr (c : Dev nD) : FVec Ideal S4096x4096 .f32 := V m c main_arg1
abbrev karr (c : Dev nD) : IVec S4096x4096 32 := V m c main_arg3
abbrev brow (c : Dev nD) : FVec Ideal S1x4096 .f32 := V m c main_v0
abbrev bvec (c : Dev nD) : FVec Ideal S4096 .f32 := m ((c : Thread nD τ).loc main_arg2)

/-- The block indices of the five windows at point t, decided over the grid's 256 points. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = t.val % 8
    ∧ win0_3.index t (0 : Fin 2) = 0 ∧ win0_3.index t (1 : Fin 2) = t.val / 8 % 4
    ∧ win0_4.index t (0 : Fin 2) = t.val / 32 ∧ win0_4.index t (1 : Fin 2) = t.val / 8 % 4 :=
  (by decide +kernel : ∀ t : Fin grid0.N, _)

/-- x's block at point t is x at rows 1024·(t/32) + p and features 512·(t mod 8) + l. -/
theorem xblk_apply (c : Dev nD) (t : Fin cfg0.N) (p : Fin 1024) (l : Fin 512) (r : Fin 8192) (k : Fin 4096)
    (hr : r.val = 1024 * (t.val / 32) + p.val) (hk : k.val = 512 * (t.val % 8) + l.val) :
    xblk m c t (ix2 p l) = xarr m c (ix2 r k) := by
  obtain ⟨e0, e1, -⟩ := idx_facts t
  show V m c main_arg0 (((cfg0.win 0).blk t).view.emb (ix2 p l)) = V m c main_arg0 (ix2 r k)
  refine congrArg _ (funext fun a => Fin.ext ?_)
  match a with
  | ⟨0, _⟩ => show win0_0.index t (0 : Fin 2) * 1024 + 1 * p.val = r.val; omega
  | ⟨1, _⟩ => show win0_0.index t (1 : Fin 2) * 512 + 1 * l.val = k.val; omega

/-- The weights' block at point t is w at rows 1024·((t/8) mod 4) + q and features 512·(t mod 8) + l. -/
theorem wblk_apply (c : Dev nD) (t : Fin cfg0.N) (q : Fin 1024) (l : Fin 512) (n k : Fin 4096)
    (hn : n.val = 1024 * (t.val / 8 % 4) + q.val) (hk : k.val = 512 * (t.val % 8) + l.val) :
    wblk m c t (ix2 q l) = warr m c (ix2 n k) := by
  obtain ⟨-, -, e0, e1, -⟩ := idx_facts t
  show V m c main_arg1 (((cfg0.win 1).blk t).view.emb (ix2 q l)) = V m c main_arg1 (ix2 n k)
  refine congrArg _ (funext fun a => Fin.ext ?_)
  match a with
  | ⟨0, _⟩ => show win0_1.index t (0 : Fin 2) * 1024 + 1 * q.val = n.val; omega
  | ⟨1, _⟩ => show win0_1.index t (1 : Fin 2) * 512 + 1 * l.val = k.val; omega

/-- The mask's block likewise. -/
theorem kblk_apply (c : Dev nD) (t : Fin cfg0.N) (q : Fin 1024) (l : Fin 512) (n k : Fin 4096)
    (hn : n.val = 1024 * (t.val / 8 % 4) + q.val) (hk : k.val = 512 * (t.val % 8) + l.val) :
    kblk m c t (ix2 q l) = karr m c (ix2 n k) := by
  obtain ⟨-, -, -, -, e0, e1, -⟩ := idx_facts t
  show V m c main_arg3 (((cfg0.win 2).blk t).view.emb (ix2 q l)) = V m c main_arg3 (ix2 n k)
  refine congrArg _ (funext fun a => Fin.ext ?_)
  match a with
  | ⟨0, _⟩ => show win0_2.index t (0 : Fin 2) * 1024 + 1 * q.val = n.val; omega
  | ⟨1, _⟩ => show win0_2.index t (1 : Fin 2) * 512 + 1 * l.val = k.val; omega

/-- The bias row's block at point t is the row at columns 1024·((t/8) mod 4) + q. -/
theorem bblk_apply (c : Dev nD) (t : Fin cfg0.N) (q : Fin 1024) (n : Fin 4096)
    (hn : n.val = 1024 * (t.val / 8 % 4) + q.val) :
    bblk m c t (ix2 0 q) = brow m c (ix2 0 n) := by
  obtain ⟨-, -, -, -, -, -, e0, e1, -⟩ := idx_facts t
  show V m c main_v0 (((cfg0.win 3).blk t).view.emb (ix2 0 q)) = V m c main_v0 (ix2 0 n)
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * q.val = n.val; omega

/-- The one host operation before the region reshapes the bias vector to one row: the region finds that row. -/
theorem brow_eq (c : Dev nD) :
    (V m c main_v0 : FVec Ideal S1x4096 .f32) = shapeCast S1x4096 (bvec m c) shapeCasts_S4096_S1x4096 := by
  dsimp only [Gen.V, Gen.hostOps0]; after_results; rfl

/-- The row's entry n is the bias vector's entry n. -/
theorem brow_apply (c : Dev nD) (n : Fin 4096) : brow m c (ix2 0 n) = bvec m c (ix1 n) := by
  show (V m c main_v0 : FVec Ideal S1x4096 .f32) (ix2 0 n) = _
  rw [brow_eq]
  refine shapeCast_apply _ _ _ (ix1 n) ?_
  rw [Shape.rowMajor_val_one, Shape.rowMajor_val_two]
  show n.val = 0 * 4096 + n.val
  omega

/-! ## What a point adds to the accumulator block -/

/-- Point t's addend at block entry y = (p, q): Σ_l x_blk[p, l] · (w_blk[q, l] · mask_blk[q, l]). -/
def addend (c : Dev nD) (t : Fin cfg0.N) (y : S1024x1024.Idx) : EReal :=
  ∑ l : Fin 512, xblk m c t (ix2 (y 0) l) * (wblk m c t (ix2 (y 1) l) * FloatOps.sitofp (F := Ideal) .f32 (kblk m c t (ix2 (y 1) l)))

/-- The same for every natural number, 0 past the grid (never consulted there). -/
def addendAt (c : Dev nD) (n : ℕ) (y : S1024x1024.Idx) : EReal :=
  if h : n < cfg0.N then addend m c ⟨n, h⟩ y else 0

/-- At the first point of a run the accumulator is left at 0 plus the point's addend, whatever it held. -/
theorem scAt_first (c : Dev nD) (n : ℕ) (hb : n < cfg0.N) (h0 : n % 8 = 0) (acc : FVec Ideal S1024x1024 .f32)
    (y : S1024x1024.Idx) : Value.scAt0_0 m c n hb acc y = 0 + addendAt m c n y := by
  obtain ⟨p, q, rfl⟩ : ∃ p q, y = ix2 p q := ⟨y 0, y 1, eq_ix2 y⟩
  have h7 : ¬n % 8 = 7 := by omega
  unfold Value.scAt0_0
  rw [dif_pos h0, dif_neg h7]
  refine (congrFun (scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun h => h7 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))) (ix2 p q)).trans ?_
  refine (update_apply (wblk m c (⟨n, hb⟩ : Fin cfg0.N)) (kblk m c (⟨n, hb⟩ : Fin cfg0.N)) (xblk m c (⟨n, hb⟩ : Fin cfg0.N)) (k0_pay1 (F := Ideal)) p q).trans ?_
  rw [reset_apply]
  unfold addendAt
  rw [dif_pos hb]
  rfl

/-- At every other point of a run it is left at what the point before left plus the point's addend. -/
theorem scAt_step (c : Dev nD) (n : ℕ) (hb : n < cfg0.N) (h0 : ¬n % 8 = 0) (acc : FVec Ideal S1024x1024 .f32)
    (y : S1024x1024.Idx) : Value.scAt0_0 m c n hb acc y = acc y + addendAt m c n y := by
  obtain ⟨p, q, rfl⟩ : ∃ p q, y = ix2 p q := ⟨y 0, y 1, eq_ix2 y⟩
  unfold Value.scAt0_0
  rw [dif_neg h0]
  by_cases h7 : n % 8 = 7
  · rw [dif_pos h7]
    refine (congrFun (scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h7) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) (ix2 p q)).trans ?_
    refine (update_apply (wblk m c (⟨n, hb⟩ : Fin cfg0.N)) (kblk m c (⟨n, hb⟩ : Fin cfg0.N)) (xblk m c (⟨n, hb⟩ : Fin cfg0.N)) acc p q).trans ?_
    unfold addendAt
    rw [dif_pos hb]
    rfl
  · rw [dif_neg h7]
    refine (congrFun (scratch_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (fun h => h7 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) (ix2 p q)).trans ?_
    refine (update_apply (wblk m c (⟨n, hb⟩ : Fin cfg0.N)) (kblk m c (⟨n, hb⟩ : Fin cfg0.N)) (xblk m c (⟨n, hb⟩ : Fin cfg0.N)) acc p q).trans ?_
    unfold addendAt
    rw [dif_pos hb]
    rfl

/-- So after point t the accumulator entry is 0 plus the addends of the run's points up to t. -/
theorem scratch_fold (c : Dev nD) (t : Fin cfg0.N) (y : S1024x1024.Idx) :
    ((outsAt0 m c t.val t.isLt).2 : FVec Ideal S1024x1024 .f32) y
      = 0 + ∑ s ∈ Finset.range (t.val % 8 + 1), addendAt m c (8 * (t.val / 8) + s) y := by
  rw [Value.soutsAt0_0_eq m c t]
  exact Pipeline.accAt_add_apply (fun n h => Value.scAt0_0 m c n h (VS0_0.read (Elt Ideal) VS0_0.junk)) (Value.scAt0_0 m c)
    (fun _ => 0) (addendAt m c) (8 * (t.val / 8)) 7
    (fun h i => scAt_first m c _ h (by omega) _ i)
    (fun n h acc i hlt hle => scAt_step m c n h (by omega) acc i)
    (t.val % 8) (by omega) _ y

/-- At the last point of a run the output block is the accumulator just updated plus the bias row. -/
theorem out_last_eq (c : Dev nD) (t : Fin cfg0.N) (h0 : ¬t.val % 8 = 0) (h7 : t.val % 8 = 7) :
    (outsAt0 m c t.val t.isLt).1 = k0_pay3 ((outsAt0 m c t.val t.isLt).2) (bblk m c t) := by
  rw [outsAt0_C m c t h0 h7]
  dsimp only
  exact (out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t) _).trans
    (congrArg (fun s => k0_pay3 s (iblk m c 3 t)) (scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t) _).symm)

/-! ## The block written back is the layer's block -/

/-- The layer of the arrays as the region finds them. -/
abbrev layer (c : Dev nD) : FVec Ideal S8192x4096 .f32 := sparseLinear (xarr m c) (warr m c) (bvec m c) (karr m c)

/-- Entry (p, q) of the block the run's last point t leaves is the layer's value at the array entry (r, n) it sits at. -/
theorem block_value (c : Dev nD) (t : Fin cfg0.N) (h7 : t.val % 8 = 7) (p q : Fin 1024) (r : Fin 8192) (n : Fin 4096)
    (hr : r.val = 1024 * (t.val / 32) + p.val) (hn : n.val = 1024 * (t.val / 8 % 4) + q.val) :
    ((outsAt0 m c t.val t.isLt).1 : FVec Ideal S1024x1024 .f32) (ix2 p q) = layer m c (ix2 r n) := by
  have hN : t.val < 256 := lt_of_lt_of_eq t.isLt (show cfg0.N = 256 from N_0)
  rw [out_last_eq m c t (by omega) h7]
  refine (output_apply ((outsAt0 m c t.val t.isLt).2) (bblk m c t) p q).trans ?_
  rw [scratch_fold m c t (ix2 p q), h7, zero_add, Finset.sum_range]
  show _ = (∑ k : Fin 4096, term (xarr m c) (warr m c) (karr m c) r n k) + bvec m c (ix1 n)
  rw [sum_runs]
  congr 1
  · refine Finset.sum_congr rfl fun s _ => ?_
    have hs := s.isLt
    have hlt : 8 * (t.val / 8) + s.val < cfg0.N := lt_of_lt_of_eq (by omega) (show (256 : ℕ) = cfg0.N from N_0.symm)
    unfold addendAt
    rw [dif_pos hlt]
    unfold addend
    refine Finset.sum_congr rfl fun l _ => ?_
    have hl := l.isLt
    have e1 := xblk_apply m c ⟨8 * (t.val / 8) + s.val, hlt⟩ p l r (feat s l)
      (by rw [hr]; show _ = 1024 * ((8 * (t.val / 8) + s.val) / 32) + p.val; omega)
      (by rw [feat_val]; show _ = 512 * ((8 * (t.val / 8) + s.val) % 8) + l.val; omega)
    have e2 := wblk_apply m c ⟨8 * (t.val / 8) + s.val, hlt⟩ q l n (feat s l)
      (by rw [hn]; show _ = 1024 * ((8 * (t.val / 8) + s.val) / 8 % 4) + q.val; omega)
      (by rw [feat_val]; show _ = 512 * ((8 * (t.val / 8) + s.val) % 8) + l.val; omega)
    have e3 := kblk_apply m c ⟨8 * (t.val / 8) + s.val, hlt⟩ q l n (feat s l)
      (by rw [hn]; show _ = 1024 * ((8 * (t.val / 8) + s.val) / 8 % 4) + q.val; omega)
      (by rw [feat_val]; show _ = 512 * ((8 * (t.val / 8) + s.val) % 8) + l.val; omega)
    show xblk m c _ (ix2 p l) * (wblk m c _ (ix2 q l) * FloatOps.sitofp (F := Ideal) .f32 (kblk m c _ (ix2 q l))) = _
    rw [e1, e2, e3]
    rfl
  · rw [bblk_apply m c t q n hn, brow_apply]

/-- The same with the two indices given whole and related coordinate by coordinate. -/
theorem block_value_idx (c : Dev nD) (t : Fin cfg0.N) (h7 : t.val % 8 = 7) (y : S1024x1024.Idx) (i : S8192x4096.Idx)
    (hi0 : (i 0).val = 1024 * (t.val / 32) + (y 0).val) (hi1 : (i 1).val = 1024 * (t.val / 8 % 4) + (y 1).val) :
    ((outsAt0 m c t.val t.isLt).1 : FVec Ideal S1024x1024 .f32) y = layer m c i := by
  obtain ⟨p, q, rfl⟩ : ∃ p q, y = ix2 p q := ⟨y 0, y 1, eq_ix2 y⟩
  obtain ⟨r, n, rfl⟩ : ∃ r n, i = ix2 r n := ⟨i 0, i 1, eq_ix2 i⟩
  exact block_value m c t h7 p q r n hi0 hi1

/-- What point t writes back, where it writes back, is its block of the layer. -/
theorem flushed_eq (c : Dev nD) (t : Fin cfg0.N) (hf : (cfg0.win 4).flush t = true) :
    (dats m 0 c).flushed 4 t = ((cfg0.win 4).blk t).view.read (Elt Ideal) (layer m c) := by
  have h7 : t.val % 8 = 7 := (flush0_4 t).mp hf
  obtain ⟨-, -, -, -, -, -, -, -, e0, e1⟩ := idx_facts t
  rw [Value.flushed4 m c t]
  funext y
  refine block_value_idx m c t h7 y (((cfg0.win 4).blk t).view.emb y) ?_ ?_
  · show win0_4.index t (0 : Fin 2) * 1024 + 1 * (y 0).val = _; omega
  · show win0_4.index t (1 : Fin 2) * 1024 + 1 * (y 1).val = _; omega

/-- An index of the result array is in point t's block iff each coordinate is in the block's range on its axis. -/
theorem mem_blk (t : Fin cfg0.N) (i : S8192x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v1).slice (win0_4.rect t)).set ↔ _
  rw [View.set_slice_whole, Rect.mem_set_unit]
  exact Iff.rfl

/-- Every entry of the result lies in the block some run's last point writes back: the run of its row block and
    column block. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hlt : 32 * ((i 0).val / 1024) + 8 * ((i 1).val / 1024) + 7 < cfg0.N :=
    lt_of_lt_of_eq (by omega) (show (256 : ℕ) = cfg0.N from N_0.symm)
  refine ⟨⟨32 * ((i 0).val / 1024) + 8 * ((i 1).val / 1024) + 7, hlt⟩, (flush0_4 _).mpr (by show (32 * ((i 0).val / 1024) + 8 * ((i 1).val / 1024) + 7) % 8 = 7; omega), ?_⟩
  obtain ⟨-, -, -, -, -, -, -, -, e0, e1⟩ := idx_facts ⟨32 * ((i 0).val / 1024) + 8 * ((i 1).val / 1024) + 7, hlt⟩
  rw [mem_blk]
  intro a
  match a with
  | ⟨0, _⟩ =>
    show win0_4.index _ (0 : Fin 2) * 1024 ≤ (i 0).val ∧ (i 0).val < win0_4.index _ (0 : Fin 2) * 1024 + 1024
    rw [e0]; show (32 * ((i 0).val / 1024) + 8 * ((i 1).val / 1024) + 7) / 32 * 1024 ≤ _ ∧ _ < (32 * ((i 0).val / 1024) + 8 * ((i 1).val / 1024) + 7) / 32 * 1024 + 1024; omega
  | ⟨1, _⟩ =>
    show win0_4.index _ (1 : Fin 2) * 1024 ≤ (i 1).val ∧ (i 1).val < win0_4.index _ (1 : Fin 2) * 1024 + 1024
    rw [e1]; show (32 * ((i 0).val / 1024) + 8 * ((i 1).val / 1024) + 7) / 8 % 4 * 1024 ≤ _ ∧ _ < (32 * ((i 0).val / 1024) + 8 * ((i 1).val / 1024) + 7) / 8 % 4 * 1024 + 1024; omega

/-- The result array after the run is the layer of the arrays the region found. -/
theorem final (c : Dev nD) : (dats m 0 c).arrAt 4 cfg0.N = layer m c :=
  (dats m 0 c).arrAt_eq_of_cover 4 (layer m c) (flushed_eq m c) covered

/-- The kernel's run: the result array at the layer of the launch contents of the four arguments, which are unchanged. -/
theorem run : θ_run defs (onTc (τ := τ) (main (F := Ideal))) ⟨m, fun _ => 0, ρ⟩ fun r => ∀ c : Dev nD,
      r.2.mem ((c : Thread nD τ).loc main_v1) = sparseLinear (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1.trans (final m c)).trans (by
      show sparseLinear (V m c main_arg0) (V m c main_arg1) (m ((c : Thread nD τ).loc main_arg2)) (V m c main_arg3) = _
      rw [V_main_arg0, V_main_arg1, V_main_arg3]), (h c).2⟩)
    (Value.run_blocks m ρ)

end Cert.KernelIdeal.Acc

end
-- ==== Proof.RefValue.lean ====
/-
  The reference program's result, entry by entry on the extended reals, is the layer: its convert-multiply-contract-
  broadcast-add, read one operation at a time, is the sum over the 4096 features of x[r, k] · (w[n, k] · mask[n, k]) plus
  the bias entry of the column.
-/
import proofs.«130189_j85787676770758_1_alg».proof.Proof.Gen.ReferenceIdeal.Read
import proofs.«130189_j85787676770758_1_alg».proof.Proof.Spec

noncomputable section

open Idealize.ShloMosaic Idealize.ShloMosaic.ValueIdx

namespace Cert.ReferenceIdeal.RefValue

open Cert.ReferenceIdeal Cert.ReferenceIdeal.Read Cert.SparseLinear

/-- The left operand of the contraction is read at (row of the entry, k). -/
theorem lidx_eq (i : S8192x4096.Idx) (k : Fin 4096) : lidx_main_v2 i k = ix2 (i 0) k :=
  funext fun a => Fin.ext (by match a with | ⟨0, _⟩ => rfl | ⟨1, _⟩ => rfl)

/-- The right operand is read at (column of the entry, k). -/
theorem ridx_eq (i : S8192x4096.Idx) (k : Fin 4096) : ridx_main_v2 i k = ix2 (i 1) k :=
  funext fun a => Fin.ext (by match a with | ⟨0, _⟩ => rfl | ⟨1, _⟩ => rfl)

/-- The two broadcasts read the bias at the entry's column. -/
theorem bidx_eq (i : S8192x4096.Idx) : idx_main_v3 (idx_main_v4 i) = ix1 (i 1) :=
  funext fun a => Fin.ext (by match a with | ⟨0, _⟩ => rfl)

/-- The reference's last stage is the layer. -/
theorem result_eq (x0 : FVec Ideal S8192x4096 .f32) (x1 : FVec Ideal S4096x4096 .f32) (x2 : FVec Ideal S4096 .f32)
    (x3 : IVec S4096x4096 32) :
    val_main_v5 (F := Ideal) x0 x1 x2 x3 = sparseLinear x0 x1 x2 x3 := by
  funext i
  rw [val_main_v5_apply, val_main_v2_apply, val_main_v4_apply, val_main_v3_apply, bidx_eq]
  show (∑ k : Fin 4096, x0 (lidx_main_v2 i k) * val_main_v1 (F := Ideal) x1 x3 (ridx_main_v2 i k)) + x2 (ix1 (i 1)) = _
  unfold sparseLinear
  refine congrArg (· + x2 (ix1 (i 1))) (Finset.sum_congr rfl fun k _ => ?_)
  rw [lidx_eq, ridx_eq]
  rfl

end Cert.ReferenceIdeal.RefValue

end
-- ==== Proof.lean ====
/-
  The masked linear layer y = x · (w ∘ mask)ᵀ + b, as a blocked kernel against its one-line reference.

  On the extended reals both programs compute, at every entry (r, n),
      ( Σ_k x[r, k] · (w[n, k] · mask[n, k]) ) + b[n],
  the mask converted from integers entry by entry.  The reference does it with one contraction over all 4096 features.
  The kernel walks an 8 × 4 × 8 grid: for each 1024 × 1024 block of the result it resets an accumulator, adds over eight
  points the product of a 1024 × 512 block of x with the masked 1024 × 512 block of w, and at the eighth writes the
  accumulator plus the bias row back.  The two agree because a sum over 4096 positions regroups into eight sums of 512,
  a law of commutative monoids that holds at the infinities as well: the precondition is never opened.  The changes of
  float format in the kernel are the identity on the extended reals, and nothing was rewritten by the idealization, so
  the preservation claim is trivial.  The three frame claims are the generated frame runs and the reference's run.
-/
import proofs.«130189_j85787676770758_1_alg».proof.Defs
import proofs.«130189_j85787676770758_1_alg».proof.Proof.Gen.Kernel
import proofs.«130189_j85787676770758_1_alg».proof.Proof.Gen.Kernel.Skeleton
import proofs.«130189_j85787676770758_1_alg».proof.Proof.Gen.Kernel.Launch
import proofs.«130189_j85787676770758_1_alg».proof.Proof.Gen.Kernel.Points
import proofs.«130189_j85787676770758_1_alg».proof.Proof.Gen.Kernel.Frame
import proofs.«130189_j85787676770758_1_alg».proof.Proof.Gen.KernelIdeal
import proofs.«130189_j85787676770758_1_alg».proof.Proof.Gen.KernelIdeal.Skeleton
import proofs.«130189_j85787676770758_1_alg».proof.Proof.Gen.KernelIdeal.Launch
import proofs.«130189_j85787676770758_1_alg».proof.Proof.Gen.KernelIdeal.Points
import proofs.«130189_j85787676770758_1_alg».proof.Proof.Gen.KernelIdeal.Frame
import proofs.«130189_j85787676770758_1_alg».proof.Proof.Gen.ReferenceIdeal
import proofs.«130189_j85787676770758_1_alg».proof.Proof.Gen.Pre_finite_inputs
import proofs.«130189_j85787676770758_1_alg».proof.Proof.Gen.KernelIdeal.Value
import proofs.«130189_j85787676770758_1_alg».proof.Proof.Gen.ReferenceIdeal.Run
import proofs.«130189_j85787676770758_1_alg».proof.Proof.Gen.ReferenceIdeal.Read
import proofs.«130189_j85787676770758_1_alg».proof.Proof.KernelValue
import proofs.«130189_j85787676770758_1_alg».proof.Proof.RefValue
import Idealize.ShloMosaic.Adequacy
import Idealize.ShloMosaic.Init

noncomputable section

namespace Cert.Proof

open Idealize.ShloMosaic Idealize.SL.Sem Cert.SparseLinear

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the layer of the same four arrays. -/
theorem algebraic : Cert.algebraic_KernelIdeal_ReferenceIdeal := by
  intro m ρ m' ρ' _ hagree
  refine ⟨fun c => sparseLinear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
